-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S1600000x64 : Shape := ⟨2, ![1600000, 64]⟩
abbrev S64x128 : Shape := ⟨2, ![64, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S1600000x64 .f32) (main_arg4 : FVec F S64x128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg3
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S1600000x64 : Shape := ⟨2, ![1600000, 64]⟩
abbrev S64x128 : Shape := ⟨2, ![64, 128]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S8000x64 : Shape := ⟨2, ![8000, 64]⟩
abbrev S8000x128 : Shape := ⟨2, ![8000, 128]⟩
abbrev S5000x128 : Shape := ⟨2, ![5000, 128]⟩
abbrev S1x128 : Shape := ⟨2, ![1, 128]⟩

abbrev nBuf : Space → Nat
  | .hbm => 27
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000x64, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S64x128, .bf16⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .bf16⟩
  | .hbm, ⟨25, _⟩ => ⟨S128x128, .bf16⟩
  | .hbm, ⟨26, _⟩ => ⟨S100000x128, .f32⟩
  | .local _ .vmem, ⟨0, _⟩ => ⟨S8000x64, .f32⟩
  | .local _ .vmem, ⟨1, _⟩ => ⟨S8000x64, .f32⟩
  | .local _ .vmem, ⟨2, _⟩ => ⟨S8000x128, .f32⟩
  | .local _ .vmem, ⟨3, _⟩ => ⟨S8000x128, .f32⟩
  | .local _ .vmem, ⟨4, _⟩ => ⟨S64x128, .bf16⟩
  | .local _ .vmem, ⟨5, _⟩ => ⟨S8000x128, .f32⟩
  | .local _ .vmem, ⟨6, _⟩ => ⟨S8000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .bf16⟩
  | .local _ .vmem, ⟨12, _⟩ => ⟨S128, .f32⟩
  | .local _ .vmem, ⟨13, _⟩ => ⟨S128x128, .bf16⟩
  | .local _ .vmem, ⟨14, _⟩ => ⟨S128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  dot_S8000x64_S64x128_S8000x128_1_0_0_1_n_n_wf : DotDims.WF S8000x64 S64x128 S8000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1600000x128.size a
  hwx0_1 : ∀ i : grid0.Coords, EltTy.bits .f32 = 32 ∨ (Rect.block (s := S1600000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1600000x128.size a
  hwx0_3 : ∀ i : grid0.Coords, EltTy.bits .f32 = 32 ∨ (Rect.block (s := S1600000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg3) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1600000x64 : Shape := ⟨2, ![1600000, 64]⟩
abbrev S64x128 : Shape := ⟨2, ![64, 128]⟩
abbrev S128x128 : Shape := ⟨2, ![128, 128]⟩
abbrev S128 : Shape := ⟨1, ![128]⟩
abbrev S1600000x128 : Shape := ⟨2, ![1600000, 128]⟩
abbrev S_ : Shape := ⟨0, ![]⟩
abbrev S1600000x1 : Shape := ⟨2, ![1600000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000x64, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1600000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S1600000x64_S64x128_S1600000x128_1_0_0_1_n_n_wf : DotDims.WF S1600000x64 S64x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The two dense stages of a message-passing layer, as functions on arrays of extended reals.

  A graph has 100000 nodes with 128 features each and 1600000 edges with 64 features each. Between the gather of the
  sender rows and the sum of the messages by receiver, and again after that sum, everything is dense and row by row:

  * the MESSAGE of edge e at feature d is the projection of the edge's features, sum over k of edges(e, k) * w(k, d),
    plus the gathered sender feature g(e, d);
  * the OUTPUT of node n at feature d is a two-layer perceptron of the row h(n, .) + x(n, .), where h holds the summed
    messages and x the node's own features: the hidden unit j is max(sum over k of (h(n,k) + x(n,k)) * w1(k, j) + b1(j), 0),
    and the output is the sum over j of hidden(j) * w2(j, d), plus b2(d).

  Both are stated coordinate by coordinate. The sums are finite sums of extended reals: addition there is commutative and
  associative everywhere, which is all that is used of them.
-/
import Idealize.ShloMosaic.Lib.ValueIdx
import Idealize.ShloMosaic.PureOps.Ideal

open scoped BigOperators

noncomputable section

namespace Cert.Spec

open Idealize.ShloMosaic Idealize.ShloMosaic.ValueIdx

/-- The message of edge `e` at feature `d`: row `e` of the edge features against column `d` of the edge weights, plus the
    gathered sender feature. -/
def msgAt (edges : (⟨2, ![1600000, 64]⟩ : Shape).Idx → EReal) (w : (⟨2, ![64, 128]⟩ : Shape).Idx → EReal)
    (g : (⟨2, ![1600000, 128]⟩ : Shape).Idx → EReal) (e : Fin 1600000) (d : Fin 128) : EReal :=
  (∑ k : Fin 64, edges (ix2 e k) * w (ix2 k d)) + g (ix2 e d)

/-- All the messages, as one array. -/
def msg (edges : (⟨2, ![1600000, 64]⟩ : Shape).Idx → EReal) (w : (⟨2, ![64, 128]⟩ : Shape).Idx → EReal)
    (g : (⟨2, ![1600000, 128]⟩ : Shape).Idx → EReal) : (⟨2, ![1600000, 128]⟩ : Shape).Idx → EReal :=
  fun i => msgAt edges w g (i 0) (i 1)

theorem msg_ix2 (edges : (⟨2, ![1600000, 64]⟩ : Shape).Idx → EReal) (w : (⟨2, ![64, 128]⟩ : Shape).Idx → EReal)
    (g : (⟨2, ![1600000, 128]⟩ : Shape).Idx → EReal) (e : Fin 1600000) (d : Fin 128) :
    msg edges w g (ix2 e d) = msgAt edges w g e d := rfl

/-- Hidden unit `j` of node `n`: the rectified first layer on the row `h(n, .) + x(n, .)`. -/
def hiddenAt (h x : (⟨2, ![100000, 128]⟩ : Shape).Idx → EReal) (w1 : (⟨2, ![128, 128]⟩ : Shape).Idx → EReal)
    (b1 : (⟨1, ![128]⟩ : Shape).Idx → EReal) (n : Fin 100000) (j : Fin 128) : EReal :=
  max ((∑ k : Fin 128, (h (ix2 n k) + x (ix2 n k)) * w1 (ix2 k j)) + b1 (ix1 j)) 0

/-- The output of node `n` at feature `d`: the second layer on the hidden units. -/
def mlpAt (h x : (⟨2, ![100000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (n : Fin 100000) (d : Fin 128) : EReal :=
  (∑ j : Fin 128, hiddenAt h x w1 b1 n j * w2 (ix2 j d)) + b2 (ix1 d)

/-- All the outputs, as one array. -/
def mlp (h x : (⟨2, ![100000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![100000, 128]⟩ : Shape).Idx → EReal :=
  fun i => mlpAt h x w1 b1 w2 b2 (i 0) (i 1)

theorem mlp_ix2 (h x : (⟨2, ![100000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (n : Fin 100000) (d : Fin 128) :
    mlp h x w1 b1 w2 b2 (ix2 n d) = mlpAt h x w1 b1 w2 b2 n d := rfl

end Cert.Spec

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Region0.lean ====
/-
  The first dense stage: what the edge-projection region leaves in the message array.

  The region runs over 200 grid points; point t works on the 8000 edges 8000 t, ..., 8000 t + 7999. It reads that block of
  the edge features and of the gathered sender rows, and the whole 64 x 128 weight matrix, and writes the same block of
  the message array: at row p of the block and feature q, the product of row p of the edge block with column q of the
  weights (a matrix product accumulated into zero, so a plain sum over the 64 contracted coordinates at the ideal
  values, the change of float format being the identity there) plus the gathered entry. Row p of block t is edge
  8000 t + p, so each block is the restriction of ONE function of the whole arrays, `Spec.msg`; the 200 blocks tile the
  1600000 edges (edge e lies in block e / 8000), so after the region the whole message array is `Spec.msg` of the
  arrays the region was entered with.
-/
import proofs.«138555_j86277303042056_1_alg».proof.Proof.Gen.KernelIdeal.Frame
import proofs.«138555_j86277303042056_1_alg».proof.Proof.Spec
import proofs.«138555_j86277303042056_1_alg».proof.Proof.LibPlainMatmul
import Idealize.ShloMosaic.Lib.Pipeline.Value
import Idealize.ShloMosaic.Lib.ValueIdx

set_option maxRecDepth 16384

open scoped BigOperators

noncomputable section

namespace Cert.KernelIdeal.Edge

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's stored value at row `p`, feature `q` of a block: the row of the edge block against the column of the
    weights, plus the gathered entry. -/
theorem pay_apply (x0 : Vec Ideal S8000x64 .f32) (x2 : Vec Ideal S64x128 .bf16) (x5 : Vec Ideal S8000x128 .f32)
    (p : Fin 8000) (q : Fin 128) :
    k0_pay1 (F := Ideal) x0 x2 x5 (ix2 p q) = (∑ k : Fin 64, x0 (ix2 p k) * x2 (ix2 k q)) + x5 (ix2 p q) := by
  unfold k0_pay1
  show matmul (F := Ideal) dot_S8000x64_S64x128_S8000x128_1_0_0_1_n_n none (truncf (F := Ideal) .bf16 x0 _)
      (shapeCast S64x128 x2 _) (constant (F := Ideal) S8000x128 .f32 0x00000000#32) (ix2 p q)
    + shapeCast S8000x128 x5 _ (ix2 p q) = _
  rw [shapeCast_self, shapeCast_self]
  rw [PlainMatmul.matmul_zero_apply dot_S8000x64_S64x128_S8000x128_1_0_0_1_n_n Facts₀.dot_S8000x64_S64x128_S8000x128_1_0_0_1_n_n_wf rfl]
  rfl

/-! ## From blocks to the array, at any contents `V` the region is entered with -/

variable (V : (c : Dev nD) → (b : Ref sig .tc) → Buf (Elt Ideal) ((c : Thread nD τ).loc b))

/-- The three arrays the region reads, as it finds them, at their literal types. -/
abbrev edgesIn (c : Dev nD) : (⟨2, ![1600000, 64]⟩ : Shape).Idx → EReal := V c main_arg3
abbrev weightsIn (c : Dev nD) : (⟨2, ![64, 128]⟩ : Shape).Idx → EReal := V c main_v7
abbrev gatheredIn (c : Dev nD) : (⟨2, ![1600000, 128]⟩ : Shape).Idx → EReal := V c main_v6

theorem origin : (![0, 0] : Fin 2 → Nat) = fun _ => 0 := funext fun a => by fin_cases a <;> rfl

/-- The printed index maps over the 200 grid points: the edge features, the gathered rows and the messages are cut along
    the edge axis, block `t` at point `t`; the weights are one block, the same at every point. -/
theorem index_maps : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 200 := lt_of_lt_of_eq t.isLt N_0

/-- Row `p` of block `t` is edge `8000 t + p`. -/
def edgeOf (t : Fin cfg0.N) (p : Fin 8000) : Fin 1600000 :=
  ⟨t.val * 8000 + p.val, by have := point_lt t; have := p.isLt; omega⟩

/-- Where the edge-feature block of point `t` sits in its array. -/
theorem emb_edges (t : Fin cfg0.N) (p : Fin 8000) (k : Fin 64) :
    ((cfg0.win 0).blk t).view.emb (ix2 p k) = ix2 (edgeOf t p) k := by
  obtain ⟨e0, e1, e2, e3, e4, e5, e6, e7⟩ := index_maps t
  funext a; apply Fin.ext
  match a with
  | ⟨0, _⟩ => show win0_0.index t (0 : Fin 2) * 8000 + 1 * p.val = t.val * 8000 + p.val; rw [e0]; omega
  | ⟨1, _⟩ => show win0_0.index t (1 : Fin 2) * 64 + 1 * k.val = k.val; rw [e1]; omega

/-- Where the gathered-rows block of point `t` sits in its array. -/
theorem emb_gathered (t : Fin cfg0.N) (p : Fin 8000) (q : Fin 128) :
    ((cfg0.win 1).blk t).view.emb (ix2 p q) = ix2 (edgeOf t p) q := by
  obtain ⟨e0, e1, e2, e3, e4, e5, e6, e7⟩ := index_maps t
  funext a; apply Fin.ext
  match a with
  | ⟨0, _⟩ => show win0_1.index t (0 : Fin 2) * 8000 + 1 * p.val = t.val * 8000 + p.val; rw [e2]; omega
  | ⟨1, _⟩ => show win0_1.index t (1 : Fin 2) * 128 + 1 * q.val = q.val; rw [e3]; omega

/-- The weights' one block is the whole matrix. -/
theorem emb_weights (t : Fin cfg0.N) (k : Fin 64) (q : Fin 128) :
    ((cfg0.win 2).blk t).view.emb (ix2 k q) = ix2 k q := by
  obtain ⟨e0, e1, e2, e3, e4, e5, e6, e7⟩ := index_maps t
  funext a; apply Fin.ext
  match a with
  | ⟨0, _⟩ => show win0_2.index t (0 : Fin 2) * 64 + 1 * k.val = k.val; rw [e4]; omega
  | ⟨1, _⟩ => show win0_2.index t (1 : Fin 2) * 128 + 1 * q.val = q.val; rw [e5]; omega

/-- Where the message block of point `t` sits in its array. -/
theorem emb_messages (t : Fin cfg0.N) (p : Fin 8000) (q : Fin 128) :
    ((cfg0.win 3).blk t).view.emb (ix2 p q) = ix2 (edgeOf t p) q := by
  obtain ⟨e0, e1, e2, e3, e4, e5, e6, e7⟩ := index_maps t
  funext a; apply Fin.ext
  match a with
  | ⟨0, _⟩ => show win0_3.index t (0 : Fin 2) * 8000 + 1 * p.val = t.val * 8000 + p.val; rw [e6]; omega
  | ⟨1, _⟩ => show win0_3.index t (1 : Fin 2) * 128 + 1 * q.val = q.val; rw [e7]; omega

/-- WHAT POINT `t` WRITES BACK is block `t` of the messages of the arrays the region was entered with. -/
theorem flushed_eq (c : Dev nD) (t : Fin cfg0.N) :
    (dat0 V c).flushed 3 t
      = ((cfg0.win 3).blk t).view.read (Elt Ideal) (Spec.msg (V c main_arg3) (V c main_v7) (V c main_v6)) := by
  show (cfg0.win 3).cut (grid0.coords t) ((dat0 V c).after 3 t) = _
  rw [after0_3]
  unfold out0_3
  rw [View.canon_unit_zero origin]
  simp only [View.ld_unit_zero (S := S8000x64) origin, View.ld_unit_zero (S := S64x128) origin,
    View.ld_unit_zero (S := S8000x128) origin]
  funext j
  obtain ⟨p, q, rfl⟩ : ∃ (p : Fin 8000) (q : Fin 128), j = ix2 p q := ⟨j 0, j 1, eq_ix2 j⟩
  show k0_pay1 (F := Ideal) (iblk0 V c 0 t) (iblk0 V c 2 t) (iblk0 V c 1 t) (ix2 p q)
    = Spec.msg (V c main_arg3) (V c main_v7) (V c main_v6) (((cfg0.win 3).blk t).view.emb (ix2 p q))
  refine (pay_apply (iblk0 V c 0 t) (iblk0 V c 2 t) (iblk0 V c 1 t) p q).trans ?_
  show (∑ k : Fin 64, edgesIn V c (((cfg0.win 0).blk t).view.emb (ix2 p k))
        * weightsIn V c (((cfg0.win 2).blk t).view.emb (ix2 k q)))
      + gatheredIn V c (((cfg0.win 1).blk t).view.emb (ix2 p q))
    = Spec.msg (edgesIn V c) (weightsIn V c) (gatheredIn V c) (((cfg0.win 3).blk t).view.emb (ix2 p q))
  rw [emb_messages, emb_gathered, Spec.msg_ix2]
  unfold Spec.msgAt
  congr 1
  exact Finset.sum_congr rfl fun k _ => by rw [emb_edges, emb_weights]

/-- An index of the message array is in point `t`'s block iff each coordinate is in the block's range on its axis. -/
theorem mem_block (t : Fin cfg0.N) (i : S1600000x128.Idx) :
    i ∈ ((cfg0.win 3).blk t).view.set
      ↔ ∀ a : Fin 2, win0_3.index t a * S8000x128.size a ≤ (i a).val
          ∧ (i a).val < win0_3.index t a * S8000x128.size a + S8000x128.size a := by
  show i ∈ ((View.whole main_v8).slice (win0_3.rect t)).set ↔ _
  rw [View.set_slice_whole, Rect.mem_set_unit]
  exact Iff.rfl

/-- Every entry of the message array is written back by some point: edge `e` by point `e / 8000`. -/
theorem covered (i : S1600000x128.Idx) :
    ∃ t : Fin cfg0.N, (cfg0.win 3).flush t = true ∧ i ∈ ((cfg0.win 3).blk t).view.set := by
  have hi0 : (i 0).val < 1600000 := (i 0).isLt
  have hi1 : (i 1).val < 128 := (i 1).isLt
  obtain ⟨t, ht⟩ : ∃ t : Fin cfg0.N, t.val = (i 0).val / 8000 :=
    ⟨⟨(i 0).val / 8000, by rw [show cfg0.N = 200 from N_0]; omega⟩, rfl⟩
  obtain ⟨e0, e1, e2, e3, e4, e5, e6, e7⟩ := index_maps t
  refine ⟨t, flush0_3 t, ?_⟩
  rw [mem_block]
  intro a
  match a with
  | ⟨0, _⟩ =>
    show win0_3.index t (0 : Fin 2) * 8000 ≤ (i 0).val ∧ (i 0).val < win0_3.index t (0 : Fin 2) * 8000 + 8000
    rw [e6, ht]; omega
  | ⟨1, _⟩ =>
    show win0_3.index t (1 : Fin 2) * 128 ≤ (i 1).val ∧ (i 1).val < win0_3.index t (1 : Fin 2) * 128 + 128
    rw [e7]; omega

/-- THE MESSAGE ARRAY after the region: the messages of the arrays the region was entered with. -/
theorem final (c : Dev nD) :
    (dat0 V c).arrAt 3 cfg0.N = Spec.msg (V c main_arg3) (V c main_v7) (V c main_v6) :=
  (dat0 V c).arrAt_eq_of_cover 3 _ (fun t _ => flushed_eq V c t) covered

end Cert.KernelIdeal.Edge

end
-- ==== Proof.Region1.lean ====
/-
  The second dense stage: what the perceptron region leaves in the result array.

  The region runs over 20 grid points; point t works on the 5000 nodes 5000 t, ..., 5000 t + 4999. It reads that block of
  the summed messages and of the node features, and the whole of the two 128 x 128 weight matrices and the two bias
  rows, and writes the same block of the result. At row p of the block and feature q it stores the second layer on the
  rectified first layer of the row h(p, .) + x(p, .): each layer a matrix product accumulated into zero (a plain sum
  over the 128 contracted coordinates at the ideal values, where the changes of float format are the identity) plus its
  bias row broadcast over the rows, the rectifier a maximum with the zero splat. Row p of block t is node 5000 t + p, so
  each block is the restriction of ONE function of the whole arrays, `Spec.mlp`; the 20 blocks tile the 100000 nodes (node
  n lies in block n / 5000), so after the region the whole result array is `Spec.mlp` of the arrays it was entered with.
-/
import proofs.«138555_j86277303042056_1_alg».proof.Proof.Gen.KernelIdeal.Frame
import proofs.«138555_j86277303042056_1_alg».proof.Proof.Spec
import proofs.«138555_j86277303042056_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Node

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The rectified first layer inside the body, at row `p` and hidden unit `j`. -/
theorem hidden_apply (v0 v2 : Vec Ideal S5000x128 .f32) (v5 : Vec Ideal S128x128 .bf16) (v8 : Vec Ideal S128 .f32)
    (p : Fin 5000) (j : Fin 128) :
    maximumf (F := Ideal)
        (addf (matmul (F := Ideal) dot_S5000x128_S128x128_S5000x128_1_0_0_1_n_n none
            (truncf (F := Ideal) .bf16 (addf (F := Ideal) (shapeCast S5000x128 v0 shapeCasts_S5000x128_S5000x128 : FVec Ideal S5000x128 .f32) v2) bitsLt_bf16_f32)
            (shapeCast S128x128 v5 shapeCasts_S128x128_S128x128 : FVec Ideal S128x128 .bf16) (constant (F := Ideal) S5000x128 .f32 0x00000000#32))
          (broadcastTo S5000x128 (shapeCast S1x128 v8 shapeCasts_S128_S1x128 : FVec Ideal S1x128 .f32) broadcasts_S1x128_S5000x128))
        (broadcast S5000x128 (Scalar.ofBits (F := Ideal) .f32 0x00000000#32)) (ix2 p j)
      = max ((∑ k : Fin 128, (v0 (ix2 p k) + v2 (ix2 p k)) * v5 (ix2 k j)) + v8 (ix1 j)) 0 := by
  show max (matmul (F := Ideal) dot_S5000x128_S128x128_S5000x128_1_0_0_1_n_n none
            (truncf (F := Ideal) .bf16 (addf (F := Ideal) (shapeCast S5000x128 v0 shapeCasts_S5000x128_S5000x128 : FVec Ideal S5000x128 .f32) v2) bitsLt_bf16_f32)
            (shapeCast S128x128 v5 shapeCasts_S128x128_S128x128 : FVec Ideal S128x128 .bf16) (constant (F := Ideal) S5000x128 .f32 0x00000000#32) (ix2 p j)
          + broadcastTo S5000x128 (shapeCast S1x128 v8 shapeCasts_S128_S1x128) broadcasts_S1x128_S5000x128 (ix2 p j))
        (Ideal.ofBits .f32 0x00000000#32) = _
  rw [shapeCast_self, shapeCast_self,
    PlainMatmul.matmul_zero_apply dot_S5000x128_S128x128_S5000x128_1_0_0_1_n_n Facts₀.dot_S5000x128_S128x128_S5000x128_1_0_0_1_n_n_wf rfl,
    broadcastTo_1b_ab_apply, shapeCast_a_1a_apply, Ideal.ofBits_zero_f32]
  rfl

/-- The body's stored value at row `p`, feature `q` of a block. -/
theorem pay_apply (v0 v2 : Vec Ideal S5000x128 .f32) (v5 : Vec Ideal S128x128 .bf16) (v8 : Vec Ideal S128 .f32)
    (v15 : Vec Ideal S128x128 .bf16) (v18 : Vec Ideal S128 .f32) (p : Fin 5000) (q : Fin 128) :
    k1_pay1 (F := Ideal) v0 v2 v5 v8 v15 v18 (ix2 p q)
      = (∑ j : Fin 128, max ((∑ k : Fin 128, (v0 (ix2 p k) + v2 (ix2 p k)) * v5 (ix2 k j)) + v8 (ix1 j)) 0 * v15 (ix2 j q))
        + v18 (ix1 q) := by
  unfold k1_pay1
  show matmul (F := Ideal) dot_S5000x128_S128x128_S5000x128_1_0_0_1_n_n none
        (truncf (F := Ideal) .bf16 (maximumf (F := Ideal)
          (addf (matmul (F := Ideal) dot_S5000x128_S128x128_S5000x128_1_0_0_1_n_n none
              (truncf (F := Ideal) .bf16 (addf (F := Ideal) (shapeCast S5000x128 v0 shapeCasts_S5000x128_S5000x128 : FVec Ideal S5000x128 .f32) v2) bitsLt_bf16_f32)
              (shapeCast S128x128 v5 shapeCasts_S128x128_S128x128 : FVec Ideal S128x128 .bf16) (constant (F := Ideal) S5000x128 .f32 0x00000000#32))
            (broadcastTo S5000x128 (shapeCast S1x128 v8 shapeCasts_S128_S1x128 : FVec Ideal S1x128 .f32) broadcasts_S1x128_S5000x128))
          (broadcast S5000x128 (Scalar.ofBits (F := Ideal) .f32 0x00000000#32))) bitsLt_bf16_f32)
        (shapeCast S128x128 v15 shapeCasts_S128x128_S128x128 : FVec Ideal S128x128 .bf16) (constant (F := Ideal) S5000x128 .f32 0x00000000#32) (ix2 p q)
      + broadcastTo S5000x128 (shapeCast S1x128 v18 shapeCasts_S128_S1x128) broadcasts_S1x128_S5000x128 (ix2 p q) = _
  rw [shapeCast_self v15,
    PlainMatmul.matmul_zero_apply dot_S5000x128_S128x128_S5000x128_1_0_0_1_n_n Facts₀.dot_S5000x128_S128x128_S5000x128_1_0_0_1_n_n_wf rfl,
    broadcastTo_1b_ab_apply, shapeCast_a_1a_apply]
  congr 1
  refine Finset.sum_congr rfl fun j _ => ?_
  congr 1
  exact hidden_apply v0 v2 v5 v8 p j

/-! ## From blocks to the array, at any contents `V` the region is entered with -/

variable (V : (c : Dev nD) → (b : Ref sig .tc) → Buf (Elt Ideal) ((c : Thread nD τ).loc b))

/-- The six arrays the region reads, as it finds them, at their literal types. -/
abbrev summedIn (c : Dev nD) : (⟨2, ![100000, 128]⟩ : Shape).Idx → EReal := V c main_v11
abbrev nodesIn (c : Dev nD) : (⟨2, ![100000, 128]⟩ : Shape).Idx → EReal := V c main_arg0
abbrev w1In (c : Dev nD) : (⟨2, ![128, 128]⟩ : Shape).Idx → EReal := V c main_v12
abbrev b1In (c : Dev nD) : (⟨1, ![128]⟩ : Shape).Idx → EReal := V c main_arg6
abbrev w2In (c : Dev nD) : (⟨2, ![128, 128]⟩ : Shape).Idx → EReal := V c main_v13
abbrev b2In (c : Dev nD) : (⟨1, ![128]⟩ : Shape).Idx → EReal := V c main_arg8

theorem origin2 : (![0, 0] : Fin 2 → Nat) = fun _ => 0 := funext fun a => by fin_cases a <;> rfl
theorem origin1 : (![0] : Fin 1 → Nat) = fun _ => 0 := funext fun a => by fin_cases a; rfl

/-- The printed index maps over the 20 grid points: the summed messages, the node features and the result are cut along
    the node axis, block `t` at point `t`; the weights and biases are one block each, the same at every point. -/
theorem index_maps : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem point_lt (t : Fin cfg1.N) : t.val < 20 := lt_of_lt_of_eq t.isLt N_1

/-- Row `p` of block `t` is node `5000 t + p`. -/
def nodeOf (t : Fin cfg1.N) (p : Fin 5000) : Fin 100000 :=
  ⟨t.val * 5000 + p.val, by have := point_lt t; have := p.isLt; omega⟩

theorem emb_summed (t : Fin cfg1.N) (p : Fin 5000) (k : Fin 128) :
    ((cfg1.win 0).blk t).view.emb (ix2 p k) = ix2 (nodeOf t p) k := by
  obtain ⟨e0, e1, e2, e3, e4, e5, e6, e7, e8, e9, e10, e11⟩ := index_maps t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem emb_nodes (t : Fin cfg1.N) (p : Fin 5000) (k : Fin 128) :
    ((cfg1.win 1).blk t).view.emb (ix2 p k) = ix2 (nodeOf t p) k := by
  obtain ⟨e0, e1, e2, e3, e4, e5, e6, e7, e8, e9, e10, e11⟩ := index_maps t
  funext a; apply Fin.ext
  match a with
  | ⟨0, _⟩ => show win1_1.index t (0 : Fin 2) * 5000 + 1 * p.val = t.val * 5000 + p.val; rw [e2]; omega
  | ⟨1, _⟩ => show win1_1.index t (1 : Fin 2) * 128 + 1 * k.val = k.val; rw [e3]; omega

theorem emb_w1 (t : Fin cfg1.N) (k j : Fin 128) :
    ((cfg1.win 2).blk t).view.emb (ix2 k j) = ix2 k j := by
  obtain ⟨e0, e1, e2, e3, e4, e5, e6, e7, e8, e9, e10, e11⟩ := index_maps t
  funext a; apply Fin.ext
  match a with
  | ⟨0, _⟩ => show win1_2.index t (0 : Fin 2) * 128 + 1 * k.val = k.val; rw [e4]; omega
  | ⟨1, _⟩ => show win1_2.index t (1 : Fin 2) * 128 + 1 * j.val = j.val; rw [e5]; omega

theorem emb_b1 (t : Fin cfg1.N) (j : Fin 128) :
    ((cfg1.win 3).blk t).view.emb (ix1 j) = ix1 j := by
  obtain ⟨e0, e1, e2, e3, e4, e5, e6, e7, e8, e9, e10, e11⟩ := index_maps t
  funext a; apply Fin.ext
  match a with
  | ⟨0, _⟩ => show win1_3.index t (0 : Fin 1) * 128 + 1 * j.val = j.val; rw [e6]; omega

theorem emb_w2 (t : Fin cfg1.N) (j q : Fin 128) :
    ((cfg1.win 4).blk t).view.emb (ix2 j q) = ix2 j q := by
  obtain ⟨e0, e1, e2, e3, e4, e5, e6, e7, e8, e9, e10, e11⟩ := index_maps t
  funext a; apply Fin.ext
  match a with
  | ⟨0, _⟩ => show win1_4.index t (0 : Fin 2) * 128 + 1 * j.val = j.val; rw [e7]; omega
  | ⟨1, _⟩ => show win1_4.index t (1 : Fin 2) * 128 + 1 * q.val = q.val; rw [e8]; omega

theorem emb_b2 (t : Fin cfg1.N) (q : Fin 128) :
    ((cfg1.win 5).blk t).view.emb (ix1 q) = ix1 q := by
  obtain ⟨e0, e1, e2, e3, e4, e5, e6, e7, e8, e9, e10, e11⟩ := index_maps t
  funext a; apply Fin.ext
  match a with
  | ⟨0, _⟩ => show win1_5.index t (0 : Fin 1) * 128 + 1 * q.val = q.val; rw [e9]; omega

theorem emb_result (t : Fin cfg1.N) (p : Fin 5000) (q : Fin 128) :
    ((cfg1.win 6).blk t).view.emb (ix2 p q) = ix2 (nodeOf t p) q := by
  obtain ⟨e0, e1, e2, e3, e4, e5, e6, e7, e8, e9, e10, e11⟩ := index_maps t
  funext a; apply Fin.ext
  match a with
  | ⟨0, _⟩ => show win1_6.index t (0 : Fin 2) * 5000 + 1 * p.val = t.val * 5000 + p.val; rw [e10]; omega
  | ⟨1, _⟩ => show win1_6.index t (1 : Fin 2) * 128 + 1 * q.val = q.val; rw [e11]; omega

/-- WHAT POINT `t` WRITES BACK is block `t` of the perceptron of the arrays the region was entered with. -/
theorem flushed_eq (c : Dev nD) (t : Fin cfg1.N) :
    (dat1 V c).flushed 6 t
      = ((cfg1.win 6).blk t).view.read (Elt Ideal)
          (Spec.mlp (summedIn V c) (nodesIn V c) (w1In V c) (b1In V c) (w2In V c) (b2In V c)) := by
  show (cfg1.win 6).cut (grid1.coords t) ((dat1 V c).after 6 t) = _
  rw [after1_6]
  unfold out1_6
  rw [View.canon_unit_zero origin2]
  simp only [View.ld_unit_zero (S := S5000x128) origin2, View.ld_unit_zero (S := S128x128) origin2,
    View.ld_unit_zero (S := S128) origin1]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = Spec.mlp (summedIn V c) (nodesIn V c) (w1In V c) (b1In V c) (w2In V c) (b2In V c) (((cfg1.win 6).blk t).view.emb (ix2 p q))
  refine (pay_apply (iblk1 V c 0 t) (iblk1 V c 1 t) (iblk1 V c 2 t) (iblk1 V c 3 t) (iblk1 V c 4 t) (iblk1 V c 5 t) p q).trans ?_
  show (∑ j : Fin 128,
          max ((∑ k : Fin 128, (summedIn V c (((cfg1.win 0).blk t).view.emb (ix2 p k))
                  + nodesIn V c (((cfg1.win 1).blk t).view.emb (ix2 p k)))
                * w1In V c (((cfg1.win 2).blk t).view.emb (ix2 k j)))
              + b1In V c (((cfg1.win 3).blk t).view.emb (ix1 j))) 0
            * w2In V c (((cfg1.win 4).blk t).view.emb (ix2 j q)))
        + b2In V c (((cfg1.win 5).blk t).view.emb (ix1 q))
    = Spec.mlp (summedIn V c) (nodesIn V c) (w1In V c) (b1In V c) (w2In V c) (b2In V c) (((cfg1.win 6).blk t).view.emb (ix2 p q))
  rw [emb_result, emb_b2, Spec.mlp_ix2]
  unfold Spec.mlpAt
  congr 1
  refine Finset.sum_congr rfl fun j _ => ?_
  rw [emb_w2, emb_b1]
  unfold Spec.hiddenAt
  congr 3
  exact Finset.sum_congr rfl fun k _ => by rw [emb_summed, emb_nodes, emb_w1]

/-- An index of the result array is in point `t`'s block iff each coordinate is in the block's range on its axis. -/
theorem mem_block (t : Fin cfg1.N) (i : S100000x128.Idx) :
    i ∈ ((cfg1.win 6).blk t).view.set
      ↔ ∀ a : Fin 2, win1_6.index t a * S5000x128.size a ≤ (i a).val
          ∧ (i a).val < win1_6.index t a * S5000x128.size a + S5000x128.size a := by
  show i ∈ ((View.whole main_v14).slice (win1_6.rect t)).set ↔ _
  rw [View.set_slice_whole, Rect.mem_set_unit]
  exact Iff.rfl

/-- Every entry of the result array is written back by some point: node `n` by point `n / 5000`. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨e0, e1, e2, e3, e4, e5, e6, e7, e8, e9, e10, e11⟩ := index_maps t
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000
    rw [e10, ht]; omega
  | ⟨1, _⟩ =>
    show win1_6.index t (1 : Fin 2) * 128 ≤ (i 1).val ∧ (i 1).val < win1_6.index t (1 : Fin 2) * 128 + 128
    rw [e11]; omega

/-- THE RESULT ARRAY after the region: the perceptron of the arrays the region was entered with. -/
theorem final (c : Dev nD) :
    (dat1 V c).arrAt 6 cfg1.N
      = Spec.mlp (summedIn V c) (nodesIn V c) (w1In V c) (b1In V c) (w2In V c) (b2In V c) :=
  (dat1 V c).arrAt_eq_of_cover 6 _ (fun t _ => flushed_eq V c t) covered

end Cert.KernelIdeal.Node

end
-- ==== Proof.Stretches.lean ====
/-
  The host operations around the two dense regions, read buffer by buffer.

  Before the first region the program wraps negative sender indices (an index below zero has the node count added),
  gathers the sender rows of the node features, and changes the float format of the edge weights (the identity at the
  ideal values). Between the regions it sums the messages by receiver into an array of zeros and changes the format of
  the two layer weights. No operation writes an argument array, and the first region writes only the message array, so
  every argument is still at its launch contents wherever a region or a later operation reads it.

  Each lemma says what one buffer holds when a region is entered, as the operations' term of the contents before the
  stretch; each operation's result is read at its own buffer, every other buffer left as it was.
-/
import proofs.«138555_j86277303042056_1_alg».proof.Proof.Gen.KernelIdeal.Frame
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first region finds -/

/-- The edge features are an argument no operation has written. -/
theorem first_edges (c : Dev nD) : V1 m ρ c main_arg3 = m ((c : Thread nD τ).loc main_arg3) := by
  show StableHlo.after hostOps0 (W0 m ρ c) (Proc.devRef .tc main_arg3) = _
  after_results <;> rfl

/-- The edge weights in the narrower float format. -/
theorem first_weights (c : Dev nD) :
    V1 m ρ c main_v7 = truncf (F := Ideal) .bf16 (m ((c : Thread nD τ).loc main_arg4)) bitsLt_bf16_f32 := by
  show StableHlo.after hostOps0 (W0 m ρ c) (Proc.devRef .tc main_v7) = _
  after_results <;> rfl

/-- The gathered sender rows: the node features gathered at the wrapped sender indices. -/
theorem first_gathered (c : Dev nD) :
    V1 m ρ c main_v6
      = Host.gather gather_S100000x128_S1600000x1_S1600000x128_1_0_n_n_0_1_1128 (m ((c : Thread nD τ).loc main_arg0))
          (broadcastInDim S1600000x1 ![0] bcast_S1600000_S1600000x1_0
            (select (cmpi .slt (m ((c : Thread nD τ).loc main_arg1)) (broadcastInDim S1600000 ![] bcast_S_S1600000 (constantI S_ 32 0#32)))
              (addi (m ((c : Thread nD τ).loc main_arg1)) (broadcastInDim S1600000 ![] bcast_S_S1600000 (constantI S_ 32 100000#32)))
              (m ((c : Thread nD τ).loc main_arg1)))) := by
  show StableHlo.after hostOps0 (W0 m ρ c) (Proc.devRef .tc main_v6) = _
  after_results <;> rfl

/-! ## What the first region leaves, outside the message array -/

/-- An argument array is none of the first region's arrays' targets of a write, and no operation before it wrote it. -/
theorem mid_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results <;> rfl
theorem mid_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results <;> rfl
theorem mid_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results <;> rfl
theorem mid_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl
theorem mid_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl
theorem mid_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

/-- The message array is the first region's output: what its write-backs left. -/
theorem mid_messages (c : Dev nD) :
    W2 m ρ c (Proc.devRef .tc main_v8) = (dat0 (V1 m ρ) c).arrAt 3 cfg0.N := W2_arr m ρ c 3

/-! ## What the second region finds -/

/-- The summed messages: the message array added, row by row, into zeros at the receiver indices. -/
theorem second_summed (c : Dev nD) :
    V3 m ρ c main_v11
      = Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (m ((c : Thread nD τ).loc main_arg2)))
          ((dat0 (V1 m ρ) c).arrAt 3 cfg0.N) := by
  rw [← mid_arg2 m ρ c, ← mid_messages m ρ c]
  show StableHlo.after hostOps1 (W2 m ρ c) (Proc.devRef .tc main_v11) = _
  after_results <;> rfl

theorem second_nodes (c : Dev nD) : V3 m ρ c main_arg0 = m ((c : Thread nD τ).loc main_arg0) := by
  rw [← mid_arg0 m ρ c]
  show StableHlo.after hostOps1 (W2 m ρ c) (Proc.devRef .tc main_arg0) = _
  after_results <;> rfl

theorem second_w1 (c : Dev nD) :
    V3 m ρ c main_v12 = truncf (F := Ideal) .bf16 (m ((c : Thread nD τ).loc main_arg5)) bitsLt_bf16_f32 := by
  rw [← mid_arg5 m ρ c]
  show StableHlo.after hostOps1 (W2 m ρ c) (Proc.devRef .tc main_v12) = _
  after_results <;> rfl

theorem second_b1 (c : Dev nD) : V3 m ρ c main_arg6 = m ((c : Thread nD τ).loc main_arg6) := by
  rw [← mid_arg6 m ρ c]
  show StableHlo.after hostOps1 (W2 m ρ c) (Proc.devRef .tc main_arg6) = _
  after_results <;> rfl

theorem second_w2 (c : Dev nD) :
    V3 m ρ c main_v13 = truncf (F := Ideal) .bf16 (m ((c : Thread nD τ).loc main_arg7)) bitsLt_bf16_f32 := by
  rw [← mid_arg7 m ρ c]
  show StableHlo.after hostOps1 (W2 m ρ c) (Proc.devRef .tc main_v13) = _
  after_results <;> rfl

theorem second_b2 (c : Dev nD) : V3 m ρ c main_arg8 = m ((c : Thread nD τ).loc main_arg8) := by
  rw [← mid_arg8 m ρ c]
  show StableHlo.after hostOps1 (W2 m ρ c) (Proc.devRef .tc main_arg8) = _
  after_results <;> rfl

end Cert.KernelIdeal.Stretch

end
-- ==== Proof.KernelValue.lean ====
/-
  The idealized program's result as one function of its arguments.

  Reading backwards from the end: the result array is the second region's output, the perceptron of what that region
  found; it found the node features, biases and (format-changed) layer weights at their launch contents, and the summed
  messages as the sum by receiver of the first region's output; the first region's output is the messages of what IT
  found, the edge features and (format-changed) edge weights at their launch contents and the sender rows gathered from
  the node features. Substituting each into the next gives `resultOf`, and the run of the program ends with the result
  array at `resultOf` of the launch memory and every argument unchanged.
-/
import proofs.«138555_j86277303042056_1_alg».proof.Proof.KernelRun
import proofs.«138555_j86277303042056_1_alg».proof.Proof.Region0
import proofs.«138555_j86277303042056_1_alg».proof.Proof.Region1
import proofs.«138555_j86277303042056_1_alg».proof.Proof.Stretches

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The sender rows: the node features gathered at the sender indices, a negative index wrapped by the node count. -/
def gatheredOf (c : Dev nD) : (⟨2, ![1600000, 128]⟩ : Shape).Idx → EReal :=
  Host.gather gather_S100000x128_S1600000x1_S1600000x128_1_0_n_n_0_1_1128 (m ((c : Thread nD τ).loc main_arg0))
    (broadcastInDim S1600000x1 ![0] bcast_S1600000_S1600000x1_0
      (select (cmpi .slt (m ((c : Thread nD τ).loc main_arg1)) (broadcastInDim S1600000 ![] bcast_S_S1600000 (constantI S_ 32 0#32)))
        (addi (m ((c : Thread nD τ).loc main_arg1)) (broadcastInDim S1600000 ![] bcast_S_S1600000 (constantI S_ 32 100000#32)))
        (m ((c : Thread nD τ).loc main_arg1))))

/-- The messages of the launch memory. -/
def messagesOf (c : Dev nD) : (⟨2, ![1600000, 128]⟩ : Shape).Idx → EReal :=
  Spec.msg (m ((c : Thread nD τ).loc main_arg3))
    (truncf (F := Ideal) .bf16 (m ((c : Thread nD τ).loc main_arg4)) bitsLt_bf16_f32) (gatheredOf m c)

/-- The messages summed by receiver into zeros. -/
def summedOf (c : Dev nD) : (⟨2, ![100000, 128]⟩ : Shape).Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (m ((c : Thread nD τ).loc main_arg2)))
    (messagesOf m c)

/-- The result: the perceptron of the summed messages and the node features. -/
def resultOf (c : Dev nD) : (⟨2, ![100000, 128]⟩ : Shape).Idx → EReal :=
  Spec.mlp (summedOf m c) (m ((c : Thread nD τ).loc main_arg0))
    (truncf (F := Ideal) .bf16 (m ((c : Thread nD τ).loc main_arg5)) bitsLt_bf16_f32) (m ((c : Thread nD τ).loc main_arg6))
    (truncf (F := Ideal) .bf16 (m ((c : Thread nD τ).loc main_arg7)) bitsLt_bf16_f32) (m ((c : Thread nD τ).loc main_arg8))

/-- The first region's output is the messages of the launch memory. -/
theorem messages_final (c : Dev nD) : (dat0 (V1 m ρ) c).arrAt 3 cfg0.N = messagesOf m c := by
  rw [Edge.final (V1 m ρ) c]
  show Spec.msg (V1 m ρ c main_arg3) (V1 m ρ c main_v7) (V1 m ρ c main_v6) = _
  rw [Stretch.first_edges, Stretch.first_weights, Stretch.first_gathered]
  rfl

/-- What the second region finds in the summed-messages buffer. -/
theorem summed_entry (c : Dev nD) : V3 m ρ c main_v11 = summedOf m c := by
  rw [Stretch.second_summed, messages_final]
  rfl

/-- The last boundary's contents at the result buffer. -/
theorem last_contents (c : Dev nD) : W4 m ρ c (Proc.devRef .tc main_v14) = resultOf m c := by
  rw [show W4 m ρ c (Proc.devRef .tc main_v14) = (dat1 (V3 m ρ) c).arrAt 6 cfg1.N from W4_arr m ρ c 6]
  rw [Node.final (V3 m ρ) c]
  show Spec.mlp (V3 m ρ c main_v11) (V3 m ρ c main_arg0) (V3 m ρ c main_v12) (V3 m ρ c main_arg6)
      (V3 m ρ c main_v13) (V3 m ρ c main_arg8) = _
  rw [summed_entry, Stretch.second_nodes, Stretch.second_w1, Stretch.second_b1, Stretch.second_w2, Stretch.second_b2]
  rfl

/-- THE RUN: every weakly fair execution of the idealized program terminates with the result array at `resultOf` of
    the launch memory and the arguments unchanged. -/
theorem run : θ_run defs (onTc (τ := τ) (main (F := Ideal))) ⟨m, fun _ => 0, ρ⟩ (fun r => ∀ c : Dev nD,
      r.2.mem ((c.tc : Thread nD τ).loc main_v14) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (last_contents m ρ c), (h c).2⟩) (run_result m ρ)

end Cert.KernelIdeal.Result

end
-- ==== Proof.Reference.lean ====
/-
  The reference, stage by stage, is the same two dense functions around the same gather and the same sum by receiver.

  Its messages are gathered row plus projection, where the kernel's region adds them the other way round: addition of
  extended reals is commutative, so its message array is `Spec.msg` of the edge features, the edge weights and ITS gathered
  rows. After the sum by receiver it adds the node features times the constant one; one times any extended real is that
  extended real, so the row the perceptron sees is h(n, .) + x(n, .), and both of its layers are the host's matrix
  products, plain sums over the contracted coordinate at the ideal values, each plus its bias row, with the same
  rectifier between. So its result is `Spec.mlp` of ITS summed messages and the arguments. Neither the gather nor the
  sum by receiver is opened: each is one operator applied to arrays, and stays so.
-/
import proofs.«138555_j86277303042056_1_alg».proof.Proof.Gen.ReferenceIdeal.Read
import proofs.«138555_j86277303042056_1_alg».proof.Proof.Spec
import Idealize.ShloMosaic.Lib.ValueIdx
import Idealize.ShloMosaic.Lib.IdealHost
import Idealize.ShloMosaic.PureOps.Ideal.Laws

open scoped BigOperators

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The index functions of the three matrix products, at coordinates -/

theorem left_edges (e : Fin 1600000) (d : Fin 128) (k : Fin 64) : lidx_main_v0 (ix2 e d) k = ix2 e k :=
  funext fun a => Fin.ext (by match a with | ⟨0, _⟩ => rfl | ⟨1, _⟩ => rfl)
theorem right_edges (e : Fin 1600000) (d : Fin 128) (k : Fin 64) : ridx_main_v0 (ix2 e d) k = ix2 k d :=
  funext fun a => Fin.ext (by match a with | ⟨0, _⟩ => rfl | ⟨1, _⟩ => rfl)
theorem left_first (n : Fin 100000) (j : Fin 128) (k : Fin 128) : lidx_main_v15 (ix2 n j) k = ix2 n k :=
  funext fun a => Fin.ext (by match a with | ⟨0, _⟩ => rfl | ⟨1, _⟩ => rfl)
theorem right_first (n : Fin 100000) (j : Fin 128) (k : Fin 128) : ridx_main_v15 (ix2 n j) k = ix2 k j :=
  funext fun a => Fin.ext (by match a with | ⟨0, _⟩ => rfl | ⟨1, _⟩ => rfl)
theorem left_second (n : Fin 100000) (d : Fin 128) (j : Fin 128) : lidx_main_v20 (ix2 n d) j = ix2 n j :=
  funext fun a => Fin.ext (by match a with | ⟨0, _⟩ => rfl | ⟨1, _⟩ => rfl)
theorem right_second (n : Fin 100000) (d : Fin 128) (j : Fin 128) : ridx_main_v20 (ix2 n d) j = ix2 j d :=
  funext fun a => Fin.ext (by match a with | ⟨0, _⟩ => rfl | ⟨1, _⟩ => rfl)
/-- A bias row broadcast over the nodes is read at the feature coordinate. -/
theorem bias_first (n : Fin 100000) (j : Fin 128) : idx_main_v16 (idx_main_v17 (ix2 n j)) = ix1 j :=
  funext fun a => Fin.ext (by match a with | ⟨0, _⟩ => rfl)
theorem bias_second (n : Fin 100000) (d : Fin 128) : idx_main_v21 (idx_main_v22 (ix2 n d)) = ix1 d :=
  funext fun a => Fin.ext (by match a with | ⟨0, _⟩ => rfl)

/-! ## The messages -/

/-- The reference's message array is the messages of the edge features, the edge weights and its gathered rows. -/
theorem messages_eq (x0 : (⟨S100000x128, .f32⟩ : BufTy).Contents (Elt Ideal)) (x1 : (⟨S1600000, .i32⟩ : BufTy).Contents (Elt Ideal))
    (x3 : (⟨S1600000x64, .f32⟩ : BufTy).Contents (Elt Ideal)) (x4 : (⟨S64x128, .f32⟩ : BufTy).Contents (Elt Ideal)) :
    val_main_v8 (F := Ideal) x0 x1 x3 x4 = Spec.msg x3 x4 (val_main_v7 (F := Ideal) x0 x1) := by
  funext i
  obtain ⟨e, d, rfl⟩ : ∃ (e : Fin 1600000) (d : Fin 128), i = ix2 e d := ⟨i 0, i 1, eq_ix2 i⟩
  rw [val_main_v8_apply, val_main_v0_apply, Spec.msg_ix2]
  unfold Spec.msgAt
  show val_main_v7 (F := Ideal) x0 x1 (ix2 e d) + ∑ k : Fin 64, x3 (lidx_main_v0 (ix2 e d) k) * x4 (ridx_main_v0 (ix2 e d) k) = _
  rw [add_comm]
  congr 1
  exact Finset.sum_congr rfl fun k _ => by rw [left_edges, right_edges]

/-- The reference's summed messages: its message array, as `Spec.msg`, summed by receiver into zeros. -/
theorem summed_eq (x0 : (⟨S100000x128, .f32⟩ : BufTy).Contents (Elt Ideal)) (x1 x2 : (⟨S1600000, .i32⟩ : BufTy).Contents (Elt Ideal))
    (x3 : (⟨S1600000x64, .f32⟩ : BufTy).Contents (Elt Ideal)) (x4 : (⟨S64x128, .f32⟩ : BufTy).Contents (Elt Ideal)) :
    val_main_v11 (F := Ideal) x0 x1 x2 x3 x4
      = Host.scatterAdd (F := Ideal) (φ := .f32) scatter_S100000x128_S1600000x1_S1600000x128_1_0_0_1 (val_main_v9 (F := Ideal))
          (val_main_v10 (F := Ideal) x2) (Spec.msg x3 x4 (val_main_v7 (F := Ideal) x0 x1)) := by
  unfold val_main_v11
  rw [messages_eq]

/-! ## The perceptron -/

/-- The row the perceptron sees: the summed messages plus one times the node features, which is plus the node features. -/
theorem row_apply (x0 : (⟨S100000x128, .f32⟩ : BufTy).Contents (Elt Ideal)) (x1 x2 : (⟨S1600000, .i32⟩ : BufTy).Contents (Elt Ideal))
    (x3 : (⟨S1600000x64, .f32⟩ : BufTy).Contents (Elt Ideal)) (x4 : (⟨S64x128, .f32⟩ : BufTy).Contents (Elt Ideal))
    (n : Fin 100000) (k : Fin 128) :
    val_main_v14 (F := Ideal) x0 x1 x2 x3 x4 (ix2 n k) = val_main_v11 (F := Ideal) x0 x1 x2 x3 x4 (ix2 n k) + x0 (ix2 n k) := by
  rw [val_main_v14_apply, val_main_v13_apply, val_main_v12_apply, val_main_cst_1_apply]
  show val_main_v11 (F := Ideal) x0 x1 x2 x3 x4 (ix2 n k) + Ideal.ofBits .f32 0x3F800000#32 * x0 (ix2 n k) = _
  rw [Ideal.ofBits_one_f32, one_mul]

/-- The reference's hidden unit `j` of node `n`. -/
theorem hidden_apply (x0 : (⟨S100000x128, .f32⟩ : BufTy).Contents (Elt Ideal)) (x1 x2 : (⟨S1600000, .i32⟩ : BufTy).Contents (Elt Ideal))
    (x3 : (⟨S1600000x64, .f32⟩ : BufTy).Contents (Elt Ideal)) (x4 : (⟨S64x128, .f32⟩ : BufTy).Contents (Elt Ideal))
    (x5 : (⟨S128x128, .f32⟩ : BufTy).Contents (Elt Ideal)) (x6 : (⟨S128, .f32⟩ : BufTy).Contents (Elt Ideal))
    (n : Fin 100000) (j : Fin 128) :
    val_main_v19 (F := Ideal) x0 x1 x2 x3 x4 x5 x6 (ix2 n j)
      = Spec.hiddenAt (val_main_v11 (F := Ideal) x0 x1 x2 x3 x4) x0 x5 x6 n j := by
  rw [val_main_v19_apply, val_main_v18_apply, val_main_v15_apply, val_main_v17_apply, val_main_v16_apply,
    val_main_call0_v0_apply, val_main_call0_cst_apply, bias_first]
  unfold Spec.hiddenAt
  show max ((∑ k : Fin 128, val_main_v14 (F := Ideal) x0 x1 x2 x3 x4 (lidx_main_v15 (ix2 n j) k) * x5 (ridx_main_v15 (ix2 n j) k))
        + x6 (ix1 j)) (Ideal.ofBits .f32 0x00000000#32) = _
  rw [Ideal.ofBits_zero_f32]
  refine congrArg (fun s => max (s + x6 (ix1 j)) 0) (Finset.sum_congr rfl fun k _ => ?_)
  rw [left_first, right_first, row_apply]

/-- The reference's result is the perceptron of its summed messages and the arguments. -/
theorem result_eq (x0 : (⟨S100000x128, .f32⟩ : BufTy).Contents (Elt Ideal)) (x1 x2 : (⟨S1600000, .i32⟩ : BufTy).Contents (Elt Ideal))
    (x3 : (⟨S1600000x64, .f32⟩ : BufTy).Contents (Elt Ideal)) (x4 : (⟨S64x128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) :
    val_main_v23 (F := Ideal) x0 x1 x2 x3 x4 x5 x6 x7 x8
      = Spec.mlp (val_main_v11 (F := Ideal) x0 x1 x2 x3 x4) x0 x5 x6 x7 x8 := by
  funext i
  obtain ⟨n, d, rfl⟩ : ∃ (n : Fin 100000) (d : Fin 128), i = ix2 n d := ⟨i 0, i 1, eq_ix2 i⟩
  rw [val_main_v23_apply, val_main_v20_apply, val_main_v22_apply, val_main_v21_apply, bias_second, Spec.mlp_ix2]
  unfold Spec.mlpAt
  show (∑ j : Fin 128, val_main_v19 (F := Ideal) x0 x1 x2 x3 x4 x5 x6 (lidx_main_v20 (ix2 n d) j) * x7 (ridx_main_v20 (ix2 n d) j))
      + x8 (ix1 d) = _
  refine congrArg (fun s => s + x8 (ix1 d)) (Finset.sum_congr rfl fun j _ => ?_)
  rw [left_second, right_second, hidden_apply]

end Cert.ReferenceIdeal.RefValue

end
-- ==== Proof.lean ====
/-
  A message-passing layer on a graph of 100000 nodes and 1600000 edges, as a kernel and as its reference.

  Both gather the sender's node features for every edge, add the edge features projected by a 64 x 128 matrix (the
  message), sum the messages by receiver, add the node's own features, and apply a two-layer perceptron with a rectifier
  between the layers. The kernel runs the projection-and-add and the perceptron as two tiled regions over blocks of
  8000 edges and of 5000 nodes, with its matrix operands in a narrower float format; the reference is five lines of
  array code. Over the extended reals, where a change of float format is the identity and every operation is exact, the
  two compute the same array:

  * each region's blocks are restrictions of one function of the whole arrays (`Spec.msg`, `Spec.mlp`) and tile the
    array, and a matrix product accumulated into zero is the plain sum over the contracted coordinate, as the host's
    product is;
  * the kernel adds projection + gathered row and the reference gathered row + projection: addition is commutative;
  * the reference adds one times the node features where the kernel adds the node features: one times x is x;
  * the gather and the sum by receiver are the same two operators on both sides, applied to equal arrays; neither is
    opened.

  None of this uses that the inputs are finite. The frames are the generated ones (the reference's is its generated run
  with the result dropped), and the kernel's idealization rewrote nothing, so `preserves` is trivial.
-/
import proofs.«138555_j86277303042056_1_alg».proof.Defs
import proofs.«138555_j86277303042056_1_alg».proof.Proof.Gen.Kernel
import proofs.«138555_j86277303042056_1_alg».proof.Proof.Gen.Kernel.Frame
import proofs.«138555_j86277303042056_1_alg».proof.Proof.Gen.KernelIdeal
import proofs.«138555_j86277303042056_1_alg».proof.Proof.Gen.KernelIdeal.Frame
import proofs.«138555_j86277303042056_1_alg».proof.Proof.Gen.ReferenceIdeal
import proofs.«138555_j86277303042056_1_alg».proof.Proof.Gen.Pre_finite_inputs
import proofs.«138555_j86277303042056_1_alg».proof.Proof.Gen.ReferenceIdeal.Run
import proofs.«138555_j86277303042056_1_alg».proof.Proof.Gen.ReferenceIdeal.Read
import proofs.«138555_j86277303042056_1_alg».proof.Proof.KernelValue
import proofs.«138555_j86277303042056_1_alg».proof.Proof.Reference
import Idealize.ShloMosaic.Adequacy
import Idealize.ShloMosaic.Init

noncomputable section

namespace Cert.Proof

open Idealize.ShloMosaic Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## The two results are one function of the arguments -/

/-- The reference's last stage, at the kernel's argument arrays, is the kernel's result: the perceptron of the messages
    summed by receiver, the messages those of the gathered sender rows. The two programs spell the gather, the sum by
    receiver, their index arrays and the zero array with their own copies of the same records and side conditions, and
    the kernel's format changes are the identity at the ideal values: the two terms are the same term. -/
theorem same_result (m : (ℓ : Loc Cert.KernelIdeal.nD Cert.KernelIdeal.τ Cert.KernelIdeal.sig) → Buf (Elt Ideal) ℓ)
    (c : Dev Cert.KernelIdeal.nD) :
    Cert.ReferenceIdeal.Read.val_main_v23 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Result.resultOf m c := by
  rw [Cert.ReferenceIdeal.RefValue.result_eq, Cert.ReferenceIdeal.RefValue.summed_eq]
  rfl

/-! ## The claims -/

/-- From memories agreeing on the arguments both programs run, and end with the same result array. -/
theorem algebraic : Cert.algebraic_KernelIdeal_ReferenceIdeal := by
  intro m ρ m' ρ' _ hagree
  refine ⟨fun c => Cert.KernelIdeal.Result.resultOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  exact (Cert.ReferenceIdeal.Read.val_main_v23_eq _ _ _ _ _ _ _ _ _).trans (same_result m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
